-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 9
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | .local _ .vmem, ⟨9, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v7 : BitVec 32 := Scalar.muli arg0 c400_i32
  let v8 : Index := Scalar.indexCast v7
  let c0_4 : Index := 0#32
  ![v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  h_S400x128 : 0 < S400x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  dot_S400x10000_S10000x128_S400x128_1_0_0_1_n_n_wf : DotDims.WF S400x10000 S10000x128 S400x128 [1] [0] [0] [1] [] []
  dot_S400x128_S128x128_S400x128_1_1_0_0_n_n_wf : DotDims.WF S400x128 S128x128 S400x128 [1] [1] [0] [0] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_1_0_0_n_n : DotDims S400x128 S128x128 S400x128 where
  lhsContracting := [1]
  rhsContracting := [1]
  lhsNonContracting := [0]
  rhsNonContracting := [0]
  lhsBatch := []
  rhsBatch := []
  wf := dot_S400x128_S128x128_S400x128_1_1_0_0_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S128x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S_, .f32⟩
  | .hbm, ⟨15, _⟩ => ⟨S10000x128, .f32⟩
  | .hbm, ⟨16, _⟩ => ⟨S10000x128, .i1⟩
  | .hbm, ⟨17, _⟩ => ⟨S_, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S128x128, .f32⟩
  | .hbm, ⟨23, _⟩ => ⟨S10000x128, .f32⟩
  | .hbm, ⟨24, _⟩ => ⟨S1x128, .f32⟩
  | .hbm, ⟨25, _⟩ => ⟨S10000x128, .f32⟩
  | .hbm, ⟨26, _⟩ => ⟨S10000x128, .f32⟩
  | .hbm, ⟨27, _⟩ => ⟨S_, .f32⟩
  | .hbm, ⟨28, _⟩ => ⟨S_, .f32⟩
  | .hbm, ⟨29, _⟩ => ⟨S10000x128, .f32⟩
  | .hbm, ⟨30, _⟩ => ⟨S10000x128, .i1⟩
  | .hbm, ⟨31, _⟩ => ⟨S_, .f32⟩
  | .hbm, ⟨32, _⟩ => ⟨S10000x128, .f32⟩
  | .hbm, ⟨33, _⟩ => ⟨S10000x128, .f32⟩
  | .hbm, ⟨34, _⟩ => ⟨S10000x128, .f32⟩
  | .hbm, ⟨35, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_call1_cst : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v14 : Ref sig .tc := ⟨.hbm, 34, rfl⟩
abbrev main_v15 : Ref sig .tc := ⟨.hbm, 35, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.KernelPieces.lean ====
/-
  WHAT EACH CASE OF THE BODY LEAVES. The body has two cases. At the first grid point it first stores the embedding
  table, cast, over the whole scratch, then computes its block from the scratch it has just written; at every later
  point it stores nothing into the scratch and computes its block from what the scratch already holds. In both cases
  the output block is written by one store over the whole staging buffer, so reading the buffer back gives that
  store's value: the body's arithmetic at the loaded blocks, the rows of the embeddings it loads being rows
  400·i₀ … 400·i₀ + 399 of the staged table.
-/
import proofs.«158629_g21217138442513_cont_8to1_279_21_alg».proof.Proof.Gen.KernelIdeal.Value
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem zeros : (![0, 0] : Fin 2 → ℕ) = fun _ => 0 := by funext a; match a with | ⟨0, _⟩ => rfl | ⟨1, _⟩ => rfl

/-- The 400 rows of the staged embedding table the body loads at grid coordinates i. -/
abbrev embRows (i : grid0.Coords) (e : Vec F S10000x128 .f32) : Vec F S400x128 .f32 :=
  View.ld e (Rect.unit (s := S10000x128) (k0_off1 i) S400x128.size (k0_off1_inb i))

/-- At the first point the scratch ends at the cast table. -/
theorem scratch_first (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (hc0 : cond0_0 i) (x0 : Vec F S400x10000 .f32) (x1 : Vec F S10000x128 .f32) (x2 : Vec F S128x128 .f32) (x3 : Vec F S1x128 .f32) (x4 : Vec F S128x128 .f32) (x5 : Vec F S1x128 .f32) :
    sout0_A_0 c i arg1 harg1 arg2 harg2 arg3 harg3 arg4 harg4 arg5 harg5 arg6 harg6 arg7 harg7 arg8 harg8 hc0 x0 x1 x2 x3 x4 x5 = k0_pay1 x1 := by
  unfold sout0_A_0
  rw [View.read_writes_eq_canon _ _ _ (scover0_A_0 c i arg1 harg1 arg2 harg2 arg3 harg3 arg4 harg4 arg5 harg5 arg6 harg6 arg7 harg7 arg8 harg8 hc0 x0 x1 x2 x3 x4 x5)]
  unfold kernelRun0_A
  dsimp only
  sl_unfold_words
  rw [View.canon_unit_zero zeros]
  simp only [View.readAt_eq_ld, harg2.read_unread, View.ld_unit_zero (S := S10000x128) zeros]

/-- At the first point the output block is the body's arithmetic over the table it has just cast. -/
theorem block_first (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (hc0 : cond0_0 i) (x0 : Vec F S400x10000 .f32) (x1 : Vec F S10000x128 .f32) (x2 : Vec F S128x128 .f32) (x3 : Vec F S1x128 .f32) (x4 : Vec F S128x128 .f32) (x5 : Vec F S1x128 .f32) :
    out0_A_6 c i arg1 harg1 arg2 harg2 arg3 harg3 arg4 harg4 arg5 harg5 arg6 harg6 arg7 harg7 arg8 harg8 hc0 x0 x1 x2 x3 x4 x5 = k0_pay2 x0 (k0_pay1 x1) (embRows i x1) x2 x3 x4 x5 := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4 x5)]
  unfold kernelRun0_A
  dsimp only
  sl_unfold_words
  rw [View.canon_unit_zero zeros]
  simp only [View.readAt_eq_ld, harg1.read_unread, harg2.read_unread, harg3.read_unread, harg4.read_unread, harg5.read_unread, harg6.read_unread,
    View.ld_unit_zero (S := S400x10000) zeros, View.ld_unit_zero (S := S10000x128) zeros, View.ld_unit_zero (S := S128x128) zeros, View.ld_unit_zero (S := S1x128) zeros,
    View.readCov_unit_zero (S := S10000x128) _ zeros]
  rfl

/-- At a later point the output block is the body's arithmetic over what the scratch held. -/
theorem block_later (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (hc0 : ¬cond0_0 i) (x0 : Vec F S400x10000 .f32) (x1 : Vec F S10000x128 .f32) (x2 : Vec F S128x128 .f32) (x3 : Vec F S1x128 .f32) (x4 : Vec F S128x128 .f32) (x5 : Vec F S1x128 .f32) (xs0 : Vec F S10000x128 .bf16) :
    out0_B_6 c i arg1 harg1 arg2 harg2 arg3 harg3 arg4 harg4 arg5 harg5 arg6 harg6 arg7 harg7 arg8 harg8 hc0 x0 x1 x2 x3 x4 x5 xs0 = k0_pay2 x0 xs0 (embRows i x1) x2 x3 x4 x5 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 x5 xs0)]
  unfold kernelRun0_B
  dsimp only
  sl_unfold_words
  rw [View.canon_unit_zero zeros]
  simp only [View.readAt_eq_ld, harg1.read_unread, harg2.read_unread, harg3.read_unread, harg4.read_unread, harg5.read_unread, harg6.read_unread, harg8.read_unread,
    View.ld_unit_zero (S := S400x10000) zeros, View.ld_unit_zero (S := S10000x128) zeros, View.ld_unit_zero (S := S128x128) zeros, View.ld_unit_zero (S := S1x128) zeros]
  rfl

end Cert.KernelIdeal.Pieces

end
-- ==== Proof.Aggregator.lean ====
/-
  THE BI-INTERACTION AGGREGATOR ON THE EXTENDED REALS, index by index.

  With node embeddings e : [10000, 128], a dense adjacency A : [10000, 10000], two weight matrices W₁, W₂ : [128, 128]
  and two biases b₁, b₂ : [128], the neighbourhood sum is s(i, d) = Σₖ A(i, k) · e(k, d), and the result at (i, j) is

      leaky( Σ_d (e(i, d) + s(i, d)) · W₁(j, d) + b₁(j) )  +  leaky( Σ_d (e(i, d) · s(i, d)) · W₂(j, d) + b₂(j) ),

  where leaky(x) is x where 0 ≤ x and slope · x elsewhere, the slope the single-precision word 0x3C23D70A read as the
  number it denotes. Both programs compute exactly this term, sum for sum and product for product, so no law of the
  extended reals beyond the commutativity of + is ever needed, and no finiteness.
-/
import Idealize.ShloMosaic.PureOps.Ideal
import Idealize.ShloMosaic.PureOps.Ideal.Laws
import Idealize.ShloMosaic.Lib.ValueIdx

noncomputable section

open scoped BigOperators

namespace Cert.Aggregator

open Idealize.ShloMosaic Idealize.ShloMosaic.ValueIdx

/-- The leaky rectifier as both programs spell it: compare with the zero word, keep x where 0 ≤ x, else the slope
    word times x. -/
def leaky (x : EReal) : EReal :=
  Scalar.select (Ideal.cmp .oge x (Ideal.ofBits .f32 0x00000000#32)) x (Ideal.ofBits .f32 0x3C23D70A#32 * x)

/-- The neighbourhood sum s(i, d) = Σₖ A(i, k) · e(k, d). -/
def side (A : (⟨2, ![10000, 10000]⟩ : Shape).Idx → EReal) (e : (⟨2, ![10000, 128]⟩ : Shape).Idx → EReal)
    (i : Fin 10000) (d : Fin 128) : EReal :=
  ∑ k : Fin 10000, A (ix2 i k) * e (ix2 k d)

/-- One branch before the rectifier: Σ_d x(d) · W(j, d) + b(j). -/
def affine (x : Fin 128 → EReal) (W : (⟨2, ![128, 128]⟩ : Shape).Idx → EReal) (b : (⟨1, ![128]⟩ : Shape).Idx → EReal)
    (j : Fin 128) : EReal :=
  (∑ d : Fin 128, x d * W (ix2 j d)) + b (ix1 j)

/-- The aggregator's result at row i, column j. -/
def out (e : (⟨2, ![10000, 128]⟩ : Shape).Idx → EReal) (A : (⟨2, ![10000, 10000]⟩ : Shape).Idx → EReal)
    (W₁ : (⟨2, ![128, 128]⟩ : Shape).Idx → EReal) (b₁ : (⟨1, ![128]⟩ : Shape).Idx → EReal)
    (W₂ : (⟨2, ![128, 128]⟩ : Shape).Idx → EReal) (b₂ : (⟨1, ![128]⟩ : Shape).Idx → EReal)
    (i : Fin 10000) (j : Fin 128) : EReal :=
  leaky (affine (fun d => e (ix2 i d) + side A e i d) W₁ b₁ j)
    + leaky (affine (fun d => e (ix2 i d) * side A e i d) W₂ b₂ j)

/-- The whole result array. -/
def agg (e : (⟨2, ![10000, 128]⟩ : Shape).Idx → EReal) (A : (⟨2, ![10000, 10000]⟩ : Shape).Idx → EReal)
    (W₁ : (⟨2, ![128, 128]⟩ : Shape).Idx → EReal) (b₁ : (⟨1, ![128]⟩ : Shape).Idx → EReal)
    (W₂ : (⟨2, ![128, 128]⟩ : Shape).Idx → EReal) (b₂ : (⟨1, ![128]⟩ : Shape).Idx → EReal) :
    (⟨2, ![10000, 128]⟩ : Shape).Idx → EReal :=
  fun y => out e A W₁ b₁ W₂ b₂ (y 0) (y 1)

end Cert.Aggregator

end
-- ==== Proof.LibPlainDot.lean ====
/-
  A PLAIN MATRIX PRODUCT READ AT AN INDEX (general lemmas; they mention no program).

  Take dimension numbers of a product [M, K] × [K, N] → [M, N] that contract the left operand's axis 1 with the
  right operand's axis 0, keep the left axis 0 and the right axis 1, and have no batch axes. The contraction index
  set then has one axis of extent K, so it is Fin K; the left operand's index at result index (i, j) and contraction
  position k is (i, k) and the right operand's is (k, j). Hence on the extended reals both the accumulate-into-zero
  product of the vector unit and the host's dot product are, at (i, j), the finite sum over k of l (i, k) · r (k, j).
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat} (d : DotDims (⟨2, ![M, K]⟩ : Shape) (⟨2, ![K, N]⟩ : Shape) (⟨2, ![M, N]⟩ : Shape))

/-- The dimension numbers are those of a plain product: contract left axis 1 with right axis 0, keep left axis 0
    and right axis 1, no batch axes. -/
structure Plain : Prop where
  lc : d.lhsContracting = [1]
  rc : d.rhsContracting = [0]
  ln : d.lhsNonContracting = [0]
  rn : d.rhsNonContracting = [1]
  lb : d.lhsBatch = []
  rb : d.rhsBatch = []

variable {d}

theorem contr_rank (h : Plain d) : d.contr.rank = 1 := by rw [d.rank_contr, h.lc]; rfl

theorem contr_size (h : Plain d) : d.contr.size ⟨0, by rw [contr_rank h]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

/-- The left operand's row is the result's row. -/
theorem lhs_row (h : Plain d) (j : (⟨2, ![M, N]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 0 _ Nat.zero_lt_two (by simp [h.lb, h.ln])

/-- The left operand's column is the contraction position. -/
theorem lhs_col (h : Plain d) (j : (⟨2, ![M, N]⟩ : Shape).Idx) (q : d.contr.Idx) :
    (d.lhsIdx j q 1).val = (q ⟨0, by rw [contr_rank h]; exact Nat.one_pos⟩).val :=
  d.lhsIdx_val_of_single h.lc j q

/-- The right operand's row is the contraction position. -/
theorem rhs_row (h : Plain d) (j : (⟨2, ![M, N]⟩ : Shape).Idx) (q : d.contr.Idx) :
    (d.rhsIdx j q 0).val = (q ⟨0, by rw [contr_rank h]; exact Nat.one_pos⟩).val :=
  d.rhsIdx_val_of_single h.rc j q

/-- The right operand's column is the result's column. -/
theorem rhs_col (h : Plain d) (j : (⟨2, ![M, N]⟩ : Shape).Idx) (q : d.contr.Idx) : (d.rhsIdx j q 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 1 _ Nat.one_lt_two (by simp [h.lb, h.ln, h.rn])

/-- The contraction's sum, re-indexed by the one contracted coordinate. -/
theorem sum_eq (h : Plain d) (l : (⟨2, ![M, K]⟩ : Shape).Idx → EReal) (r : (⟨2, ![K, N]⟩ : Shape).Idx → EReal)
    (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank h) (contr_size h)).symm]
  refine Finset.sum_congr rfl fun k _ => ?_
  have hk := contrEquiv1_symm_val d K (contr_rank h) (contr_size h) k
  have el : d.lhsIdx j ((contrEquiv1 d K (contr_rank h) (contr_size h)).symm k) = ix2 (j 0) k := funext fun a => Fin.ext (by
    match a with
    | ⟨0, _⟩ => exact lhs_row h _ _
    | ⟨1, _⟩ => exact (lhs_col h _ _).trans hk)
  have er : d.rhsIdx j ((contrEquiv1 d K (contr_rank h) (contr_size h)).symm k) = ix2 k (j 1) := funext fun a => Fin.ext (by
    match a with
    | ⟨0, _⟩ => exact (rhs_row h _ _).trans hk
    | ⟨1, _⟩ => exact rhs_col h _ _)
  exact congrArg₂ (· * ·) (congrArg l el) (congrArg r er)

/-- The vector unit's product into the zero accumulator, at an index. -/
theorem matmul_zero_apply (h : Plain d) {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    FloatOps.matmul d prec l r (constant (⟨2, ![M, N]⟩ : Shape) .f32 0x00000000#32) j = ∑ k : Fin K, l (ix2 (j 0) k) * r (ix2 k (j 1)) :=
  (Ideal.matmul_constant_zero_apply d prec l r j).trans (sum_eq h l r j)

/-- The host's dot product, at an index. -/
theorem dotGeneral_apply (h : Plain d) {φ₁ φ₂ : FTy} (prec : Option ContractPrecision) (sched : HostSchedule)
    (l : FVec Ideal (⟨2, ![M, K]⟩ : Shape) φ₁) (r : FVec Ideal (⟨2, ![K, N]⟩ : Shape) φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (sum_eq h l r j)

end Cert.Lib.PlainDot

end
-- ==== Proof.LibTransposedDot.lean ====
/-
  A MATRIX PRODUCT AGAINST THE ROWS OF THE RIGHT OPERAND, READ AT AN INDEX (general lemmas; they mention no program).

  Take dimension numbers of a product [M, K] × [N, K] → [M, N] that contract the left operand's axis 1 with the
  right operand's axis 1, keep the left axis 0 and the right axis 0, and have no batch axes: x · wᵀ without the
  transpose being formed. The contraction index set has one axis of extent K, so it is Fin K; the left operand's
  index at result index (i, j) and contraction position k is (i, k), the right operand's is (j, k). Hence on the
  extended reals the vector unit's accumulate-into-zero product is, at (i, j), the finite sum over k of
  l (i, k) · r (j, k).
-/
import Idealize.ShloMosaic.PureOps.Ideal.Laws
import Idealize.ShloMosaic.Lib.ValueIdx

noncomputable section

open scoped BigOperators

namespace Cert.Lib.TransposedDot

open Idealize.ShloMosaic Idealize.ShloMosaic.ValueIdx

variable {M K N : Nat} (d : DotDims (⟨2, ![M, K]⟩ : Shape) (⟨2, ![N, K]⟩ : Shape) (⟨2, ![M, N]⟩ : Shape))

/-- The dimension numbers are those of x · wᵀ: contract left axis 1 with right axis 1, keep left axis 0 and right
    axis 0, no batch axes. -/
structure RowsByRows : Prop where
  lc : d.lhsContracting = [1]
  rc : d.rhsContracting = [1]
  ln : d.lhsNonContracting = [0]
  rn : d.rhsNonContracting = [0]
  lb : d.lhsBatch = []
  rb : d.rhsBatch = []

variable {d}

theorem contr_rank (h : RowsByRows d) : d.contr.rank = 1 := by rw [d.rank_contr, h.lc]; rfl

theorem contr_size (h : RowsByRows d) : d.contr.size ⟨0, by rw [contr_rank h]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

/-- The left operand's row is the result's row. -/
theorem lhs_row (h : RowsByRows d) (j : (⟨2, ![M, N]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 0 _ Nat.zero_lt_two (by simp [h.lb, h.ln])

/-- The left operand's column is the contraction position. -/
theorem lhs_col (h : RowsByRows d) (j : (⟨2, ![M, N]⟩ : Shape).Idx) (q : d.contr.Idx) :
    (d.lhsIdx j q 1).val = (q ⟨0, by rw [contr_rank h]; exact Nat.one_pos⟩).val :=
  d.lhsIdx_val_of_single h.lc j q

/-- The right operand's row is the result's column. -/
theorem rhs_row (h : RowsByRows d) (j : (⟨2, ![M, N]⟩ : Shape).Idx) (q : d.contr.Idx) : (d.rhsIdx j q 0).val = (j 1).val := by
  have hb : (0 : Fin (⟨2, ![N, K]⟩ : Shape).rank) ∉ d.rhsBatch := by rw [h.rb]; exact List.not_mem_nil
  have hn : (0 : Fin (⟨2, ![N, K]⟩ : Shape).rank) ∈ d.rhsNonContracting := by rw [h.rn]; exact List.mem_singleton.mpr rfl
  unfold DotDims.rhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 1 _ Nat.one_lt_two (by simp [h.lb, h.ln, h.rn])

/-- The right operand's column is the contraction position. -/
theorem rhs_col (h : RowsByRows d) (j : (⟨2, ![M, N]⟩ : Shape).Idx) (q : d.contr.Idx) :
    (d.rhsIdx j q 1).val = (q ⟨0, by rw [contr_rank h]; exact Nat.one_pos⟩).val :=
  d.rhsIdx_val_of_single h.rc j q

/-- The contraction's sum, re-indexed by the one contracted coordinate. -/
theorem sum_eq (h : RowsByRows d) (l : (⟨2, ![M, K]⟩ : Shape).Idx → EReal) (r : (⟨2, ![N, K]⟩ : Shape).Idx → EReal)
    (j : (⟨2, ![M, N]⟩ : Shape).Idx) :
    ∑ q : d.contr.Idx, l (d.lhsIdx j q) * r (d.rhsIdx j q) = ∑ k : Fin K, l (ix2 (j 0) k) * r (ix2 (j 1) k) := by
  rw [← Equiv.sum_comp (contrEquiv1 d K (contr_rank h) (contr_size h)).symm]
  refine Finset.sum_congr rfl fun k _ => ?_
  have hk := contrEquiv1_symm_val d K (contr_rank h) (contr_size h) k
  have el : d.lhsIdx j ((contrEquiv1 d K (contr_rank h) (contr_size h)).symm k) = ix2 (j 0) k := funext fun a => Fin.ext (by
    match a with
    | ⟨0, _⟩ => exact lhs_row h _ _
    | ⟨1, _⟩ => exact (lhs_col h _ _).trans hk)
  have er : d.rhsIdx j ((contrEquiv1 d K (contr_rank h) (contr_size h)).symm k) = ix2 (j 1) k := funext fun a => Fin.ext (by
    match a with
    | ⟨0, _⟩ => exact rhs_row h _ _
    | ⟨1, _⟩ => exact (rhs_col h _ _).trans hk)
  exact congrArg₂ (· * ·) (congrArg l el) (congrArg r er)

/-- The vector unit's product into the zero accumulator, at an index. -/
theorem matmul_zero_apply (h : RowsByRows d) {φ₁ φ₂ : FTy} (prec : Option ContractPrecision)
    (l : FVec Ideal (⟨2, ![M, K]⟩ : Shape) φ₁) (r : FVec Ideal (⟨2, ![N, K]⟩ : Shape) φ₂) (j : (⟨2, ![M, N]⟩ : Shape).Idx) :
    FloatOps.matmul d prec l r (constant (⟨2, ![M, N]⟩ : Shape) .f32 0x00000000#32) j = ∑ k : Fin K, l (ix2 (j 0) k) * r (ix2 (j 1) k) :=
  (Ideal.matmul_constant_zero_apply d prec l r j).trans (sum_eq h l r j)

end Cert.Lib.TransposedDot

end
-- ==== Proof.KernelEntry.lean ====
/-
  ONE GRID POINT'S ARITHMETIC, entry by entry. At a grid point the body holds 400 rows of the adjacency (a), the
  whole embedding table as it was cast into the scratch (s), the same 400 rows of the embeddings (x), both weight
  matrices and both biases as [1, 128] rows. Its one stored value is

      leaky((x + a·s) · W₁ᵀ + b₁) + leaky((x ∘ a·s) · W₂ᵀ + b₂),

  every product accumulated into a zero splat and every cast between float formats the identity on the extended
  reals. Read at row r and column j this is the aggregator's formula over the block's own rows: the first product
  at (r, d) is Σₖ a(r, k) · s(k, d); a product against the rows of W at (r, j) is Σ_d y(r, d) · W(j, d); the bias row
  broadcast over the 400 rows reads b(0, j); the rectifier acts entry by entry.
-/
import proofs.«158629_g21217138442513_cont_8to1_279_21_alg».proof.Proof.Gen.KernelIdeal.Skeleton
import proofs.«158629_g21217138442513_cont_8to1_279_21_alg».proof.Proof.Aggregator
import proofs.«158629_g21217138442513_cont_8to1_279_21_alg».proof.Proof.LibPlainDot
import proofs.«158629_g21217138442513_cont_8to1_279_21_alg».proof.Proof.LibTransposedDot
import Idealize.ShloMosaic.Lib.ValueLayout
import Idealize.ShloMosaic.Lib.Pipeline.Value

noncomputable section

open scoped BigOperators

namespace Cert.KernelIdeal.Entry

open Cert.KernelIdeal Cert.KernelIdeal.Gen Idealize.ShloMosaic Idealize.ShloMosaic.TcCoe Idealize.SL.Sem
open Idealize.ShloMosaic.ValueIdx

variable {F : FTy → Type} [FloatOps F]

/-- The block's rows of the adjacency times the scratch. -/
def sideK (a : Vec F S400x10000 .f32) (s : Vec F S10000x128 .bf16) : FVec F S400x128 .f32 :=
  matmul dot_S400x10000_S10000x128_S400x128_1_0_0_1_n_n none (truncf .bf16 a bitsLt_bf16_f32) s (constant S400x128 .f32 0x00000000#32)

/-- One branch before the rectifier: y against the rows of W, plus the bias row on every row. -/
def branchK (y : FVec F S400x128 .f32) (W : Vec F S128x128 .f32) (b : Vec F S1x128 .f32) : FVec F S400x128 .f32 :=
  addf (matmul dot_S400x128_S128x128_S400x128_1_1_0_0_n_n none y W (constant S400x128 .f32 0x00000000#32))
    (broadcastTo S400x128 (shapeCast S1x128 b shapeCasts_S1x128_S1x128) broadcasts_S1x128_S400x128)

/-- The rectifier as the body spells it. -/
def leakyK (y : FVec F S400x128 .f32) : FVec F S400x128 .f32 :=
  select (cmpf .oge y (broadcast S400x128 (Scalar.ofBits .f32 0x00000000#32))) y
    (mulf (broadcast S400x128 (Scalar.ofBits .f32 0x3C23D70A#32)) y)

/-- The body's stored value is the two rectified branches' sum. -/
theorem pay2_eq (a : Vec F S400x10000 .f32) (s : Vec F S10000x128 .bf16) (x : Vec F S400x128 .f32) (W₁ : Vec F S128x128 .f32)
    (b₁ : Vec F S1x128 .f32) (W₂ : Vec F S128x128 .f32) (b₂ : Vec F S1x128 .f32) :
    k0_pay2 a s x W₁ b₁ W₂ b₂
      = addf (leakyK (branchK (addf x (sideK a s)) W₁ b₁)) (leakyK (branchK (mulf x (sideK a s)) W₂ b₂)) := rfl

/-- What the first grid point stores into the scratch is the embedding table, entry for entry: the cast to the
    shorter format and the cast to the same shape change no entry. -/
theorem pay1_apply (e : Vec Ideal S10000x128 .f32) (y : S10000x128.Idx) : k0_pay1 e y = e y := by
  unfold k0_pay1
  rw [shapeCast_self]
  rfl

theorem sideK_apply (a : Vec Ideal S400x10000 .f32) (s : Vec Ideal S10000x128 .bf16) (r : Fin 400) (d : Fin 128) :
    sideK a s (ix2 r d) = ∑ k : Fin 10000, a (ix2 r k) * s (ix2 k d) :=
  Cert.Lib.PlainDot.matmul_zero_apply (d := dot_S400x10000_S10000x128_S400x128_1_0_0_1_n_n) ⟨rfl, rfl, rfl, rfl, rfl, rfl⟩ none
    (truncf .bf16 a bitsLt_bf16_f32) s (ix2 r d)

theorem branchK_apply (y : FVec Ideal S400x128 .f32) (W : Vec Ideal S128x128 .f32) (b : Vec Ideal S1x128 .f32) (r : Fin 400) (j : Fin 128) :
    branchK y W b (ix2 r j) = Cert.Aggregator.affine (fun d => y (ix2 r d)) W (fun z => b (ix2 (0 : Fin 1) (z 0))) j := by
  unfold branchK Cert.Aggregator.affine
  rw [addf_apply, shapeCast_self, broadcastTo_1b_ab_apply]
  exact congrArg (· + b (ix2 (0 : Fin 1) j))
    (Cert.Lib.TransposedDot.matmul_zero_apply (d := dot_S400x128_S128x128_S400x128_1_1_0_0_n_n) ⟨rfl, rfl, rfl, rfl, rfl, rfl⟩ none y W (ix2 r j))

theorem leakyK_apply (y : FVec Ideal S400x128 .f32) (z : S400x128.Idx) : leakyK y z = Cert.Aggregator.leaky (y z) := rfl

/-- The stored value at row r and column j. -/
theorem pay2_apply (a : Vec Ideal S400x10000 .f32) (s : Vec Ideal S10000x128 .bf16) (x : Vec Ideal S400x128 .f32) (W₁ : Vec Ideal S128x128 .f32)
    (b₁ : Vec Ideal S1x128 .f32) (W₂ : Vec Ideal S128x128 .f32) (b₂ : Vec Ideal S1x128 .f32) (r : Fin 400) (j : Fin 128) :
    k0_pay2 a s x W₁ b₁ W₂ b₂ (ix2 r j)
      = Cert.Aggregator.leaky (Cert.Aggregator.affine (fun d => x (ix2 r d) + ∑ k : Fin 10000, a (ix2 r k) * s (ix2 k d)) W₁
          (fun z => b₁ (ix2 (0 : Fin 1) (z 0))) j)
        + Cert.Aggregator.leaky (Cert.Aggregator.affine (fun d => x (ix2 r d) * ∑ k : Fin 10000, a (ix2 r k) * s (ix2 k d)) W₂
          (fun z => b₂ (ix2 (0 : Fin 1) (z 0))) j) := by
  rw [pay2_eq, addf_apply, leakyK_apply, leakyK_apply, branchK_apply, branchK_apply]
  have hs : ∀ d : Fin 128, sideK a s (ix2 r d) = ∑ k : Fin 10000, a (ix2 r k) * s (ix2 k d) := fun d => sideK_apply a s r d
  simp only [addf_apply, mulf_apply, hs]

end Cert.KernelIdeal.Entry

end
-- ==== Proof.KernelBlocks.lean ====
/-
  WHAT EVERY GRID POINT WRITES BACK. The grid has 25 points; point t stages rows 400·t … 400·t + 399 of the adjacency,
  the whole embedding table, both weight matrices and both bias rows (each bias reshaped to [1, 128] by the program
  before the launch), and writes back rows 400·t … 400·t + 399 of the result. The scratch is written once, at point 0,
  with the embedding table, and no later point stores into it: by induction it holds the table at every point. So at
  every point the block written back is the body's arithmetic over rows of the arguments, which, entry by entry, is
  the aggregator at row 400·t + r and column j: block t of the aggregator's whole result.
-/
import proofs.«158629_g21217138442513_cont_8to1_279_21_alg».proof.Proof.KernelPieces
import proofs.«158629_g21217138442513_cont_8to1_279_21_alg».proof.Proof.KernelEntry

set_option maxRecDepth 16384

noncomputable section

open scoped BigOperators

namespace Cert.KernelIdeal.Blocks

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ)

/-! ## The arrays the region finds, at their literal types -/

abbrev emb (c : Dev nD) : Vec F S10000x128 .f32 := V m c main_arg0
abbrev adj (c : Dev nD) : Vec F S10000x10000 .f32 := V m c main_arg1
abbrev wt₁ (c : Dev nD) : Vec F S128x128 .f32 := V m c main_arg2
abbrev wt₂ (c : Dev nD) : Vec F S128x128 .f32 := V m c main_arg4
abbrev biasRow₁ (c : Dev nD) : Vec F S1x128 .f32 := V m c main_call0_v0
abbrev biasRow₂ (c : Dev nD) : Vec F S1x128 .f32 := V m c main_call0_v1

/-- No host operation before the launch writes an argument: the region finds each as launched. -/
theorem emb_eq (c : Dev nD) : emb m c = m ((c : Thread nD τ).loc main_arg0) := V_main_arg0 m c
theorem adj_eq (c : Dev nD) : adj m c = m ((c : Thread nD τ).loc main_arg1) := V_main_arg1 m c
theorem wt₁_eq (c : Dev nD) : wt₁ m c = m ((c : Thread nD τ).loc main_arg2) := V_main_arg2 m c
theorem wt₂_eq (c : Dev nD) : wt₂ m c = m ((c : Thread nD τ).loc main_arg4) := V_main_arg4 m c

/-- The bias rows are the biases reshaped by the program before the launch. -/
theorem biasRow₁_eq (c : Dev nD) :
    biasRow₁ m c = shapeCast S1x128 (m ((c : Thread nD τ).loc main_arg3)) shapeCasts_S128_S1x128 := by
  dsimp only [biasRow₁, V, hostOps0]
  after_results
  rfl

theorem biasRow₂_eq (c : Dev nD) :
    biasRow₂ m c = shapeCast S1x128 (m ((c : Thread nD τ).loc main_arg5)) shapeCasts_S128_S1x128 := by
  dsimp only [biasRow₂, V, hostOps0]
  after_results
  rfl

/-! ## The blocks the windows stage -/

/-- The printed index maps over the grid: the adjacency's and the result's row block is the point, every other
    window stays at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row r of point t's block is row 400·t + r of the array. -/
def row (t : Fin cfg0.N) (r : Fin 400) : Fin 10000 :=
  ⟨400 * t.val + r.val, by have h := lt_of_lt_of_eq t.isLt N_0; have := r.isLt; omega⟩

theorem embBlk_eq (c : Dev nD) (t : Fin cfg0.N) : (iblk m c 1 t : Vec F S10000x128 .f32) = emb m c := by
  obtain ⟨-, -, e0, e1, -⟩ := index_facts t
  funext y
  show V m c main_arg0 (((cfg0.win 1).blk t).view.emb y) = V m c main_arg0 y
  refine congrArg _ (funext fun a => Fin.ext ?_)
  match a with
  | ⟨0, _⟩ => show win0_1.index t (0 : Fin 2) * 10000 + 1 * (y 0).val = (y 0).val; omega
  | ⟨1, _⟩ => show win0_1.index t (1 : Fin 2) * 128 + 1 * (y 1).val = (y 1).val; omega

theorem wt₁Blk_eq (c : Dev nD) (t : Fin cfg0.N) : (iblk m c 2 t : Vec F S128x128 .f32) = wt₁ m c := by
  obtain ⟨-, -, -, -, e0, e1, -⟩ := index_facts t
  funext y
  show V m c main_arg2 (((cfg0.win 2).blk t).view.emb y) = V m c main_arg2 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem biasRow₁Blk_eq (c : Dev nD) (t : Fin cfg0.N) : (iblk m c 3 t : Vec F S1x128 .f32) = biasRow₁ m c := by
  obtain ⟨-, -, -, -, -, -, e0, e1, -⟩ := index_facts t
  funext y
  show V m c main_call0_v0 (((cfg0.win 3).blk t).view.emb y) = V m c main_call0_v0 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

theorem wt₂Blk_eq (c : Dev nD) (t : Fin cfg0.N) : (iblk m c 4 t : Vec F S128x128 .f32) = wt₂ m c := by
  obtain ⟨-, -, -, -, -, -, -, -, e0, e1, -⟩ := index_facts t
  funext y
  show V m c main_arg4 (((cfg0.win 4).blk t).view.emb y) = V m c main_arg4 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem biasRow₂Blk_eq (c : Dev nD) (t : Fin cfg0.N) : (iblk m c 5 t : Vec F S1x128 .f32) = biasRow₂ m c := by
  obtain ⟨-, -, -, -, -, -, -, -, -, -, e0, e1, -⟩ := index_facts t
  funext y
  show V m c main_call0_v1 (((cfg0.win 5).blk t).view.emb y) = V m c main_call0_v1 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- The adjacency's block at point t, at its literal type. -/
abbrev adjBlk (c : Dev nD) (t : Fin cfg0.N) : Vec F S400x10000 .f32 := iblk m c 0 t

/-- The adjacency's block at point t, row r, is row 400·t + r of the adjacency. -/
theorem adjBlk_apply (c : Dev nD) (t : Fin cfg0.N) (r : Fin 400) (k : Fin 10000) :
    adjBlk m c t (ix2 r k) = adj m c (ix2 (row t r) k) := by
  obtain ⟨e0, e1, -⟩ := index_facts t
  show V m c main_arg1 (((cfg0.win 0).blk t).view.emb (ix2 r k)) = V m c main_arg1 (ix2 (row t r) k)
  refine congrArg _ (funext fun a => Fin.ext ?_)
  match a with
  | ⟨0, _⟩ => show win0_0.index t (0 : Fin 2) * 400 + 1 * r.val = 400 * t.val + r.val; omega
  | ⟨1, _⟩ => show win0_0.index t (1 : Fin 2) * 10000 + 1 * k.val = k.val; omega

/-- The rows of the embeddings the body loads at point t are rows 400·t … of the table. -/
theorem embRows_apply (t : Fin cfg0.N) (e : Vec F S10000x128 .f32) (r : Fin 400) (d : Fin 128) :
    Pieces.embRows (grid0.coords t) e (ix2 r d) = e (ix2 (row t r) d) := by
  have hc : (grid0.coords t 0).val = t.val := (by decide +kernel : ∀ t : Fin grid0.N, (grid0.coords t 0).val = t.val) t
  show e ((Rect.unit (s := S10000x128) (k0_off1 (grid0.coords t)) S400x128.size (k0_off1_inb (grid0.coords t))).idx (ix2 r d)) = _
  refine congrArg e (funext fun a => Fin.ext ?_)
  match a with
  | ⟨0, _⟩ => show k0_off1 (grid0.coords t) 0 + 1 * r.val = 400 * t.val + r.val; rw [k0_off1_eq]; show 400 * (grid0.coords t 0).val + 1 * r.val = _; omega
  | ⟨1, _⟩ => show k0_off1 (grid0.coords t) 1 + 1 * d.val = d.val; rw [k0_off1_eq]; show 0 + 1 * d.val = _; omega

/-! ## The scratch holds the embedding table at every point -/

theorem scratch_at (c : Dev nD) : ∀ (n : ℕ) (hn : n < cfg0.N), (outsAt0 m c n hn).2 = k0_pay1 (emb m c)
  | 0, hn => by
    rw [outsAt0_A m c ⟨0, hn⟩ (Nat.zero_mod _)]
    dsimp only
    rw [Pieces.scratch_first, embBlk_eq]
  | n + 1, hn => by
    by_cases h0 : (n + 1) % 25 = 0
    · rw [outsAt0_A m c ⟨n + 1, hn⟩ h0]
      dsimp only
      rw [Pieces.scratch_first, embBlk_eq]
    · rw [outsAt0_B m c ⟨n + 1, hn⟩ h0]
      dsimp only
      unfold sout0_B_0
      exact scratch_at c n (Nat.lt_of_succ_lt hn)

/-- What point t leaves in the output's staging buffer: the body's arithmetic over the point's blocks and the table. -/
theorem block_at (c : Dev nD) (t : Fin cfg0.N) :
    (outsAt0 m c t.val t.isLt).1
      = k0_pay2 (adjBlk m c t) (k0_pay1 (emb m c)) (Pieces.embRows (grid0.coords t) (emb m c)) (wt₁ m c) (biasRow₁ m c) (wt₂ m c) (biasRow₂ m c) := by
  by_cases h0 : t.val % 25 = 0
  · rw [outsAt0_A m c t h0]
    dsimp only
    rw [Pieces.block_first, embBlk_eq, wt₁Blk_eq, biasRow₁Blk_eq, wt₂Blk_eq, biasRow₂Blk_eq]
  · rw [outsAt0_B m c t h0]
    dsimp only
    rw [Pieces.block_later, scratch_at, embBlk_eq, wt₁Blk_eq, biasRow₁Blk_eq, wt₂Blk_eq, biasRow₂Blk_eq]

end Cert.KernelIdeal.Blocks

end
-- ==== Proof.KernelWhole.lean ====
/-
  THE KERNEL'S RESULT ARRAY. Point t writes back rows 400·t … 400·t + 399, and those rows of the written block are the
  aggregator of the arguments at those rows: the staged rows of the adjacency and of the embeddings are the
  arguments' rows 400·t + r, the scratch is the embedding table, the weights are staged whole and a bias row read at
  (0, j) is the bias at j. The 25 blocks of 400 rows cover the 10000 rows (row i lies in block i / 400), so after
  the run the result array is the aggregator of the arguments, and the arguments are as launched.
-/
import proofs.«158629_g21217138442513_cont_8to1_279_21_alg».proof.Proof.KernelBlocks

set_option maxRecDepth 16384

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The aggregator of the arguments as launched. -/
abbrev result (c : Dev nD) : S10000x128.Idx → EReal :=
  Cert.Aggregator.agg (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- A bias row read at (0, j) is the bias at j. -/
theorem bias₁_fun (c : Dev nD) :
    (fun z : S128.Idx => Blocks.biasRow₁ m c (ix2 (0 : Fin 1) (z 0))) = (m ((c : Thread nD τ).loc main_arg3)) := by
  funext z
  obtain ⟨q, rfl⟩ : ∃ q : Fin 128, z = ix1 q := ⟨z 0, eq_ix1 z⟩
  show Blocks.biasRow₁ m c (ix2 (0 : Fin 1) q) = _
  rw [Blocks.biasRow₁_eq, shapeCast_a_1a_apply]

theorem bias₂_fun (c : Dev nD) :
    (fun z : S128.Idx => Blocks.biasRow₂ m c (ix2 (0 : Fin 1) (z 0))) = (m ((c : Thread nD τ).loc main_arg5)) := by
  funext z
  obtain ⟨q, rfl⟩ : ∃ q : Fin 128, z = ix1 q := ⟨z 0, eq_ix1 z⟩
  show Blocks.biasRow₂ m c (ix2 (0 : Fin 1) q) = _
  rw [Blocks.biasRow₂_eq, shapeCast_a_1a_apply]

/-- The neighbourhood sum over the staged blocks is the arguments' neighbourhood sum at row 400·t + r. -/
theorem side_at (c : Dev nD) (t : Fin cfg0.N) (r : Fin 400) (d : Fin 128) :
    (∑ k : Fin 10000, Blocks.adjBlk m c t (ix2 r k) * k0_pay1 (Blocks.emb m c) (ix2 k d))
      = Cert.Aggregator.side (m ((c : Thread nD τ).loc main_arg1)) (m ((c : Thread nD τ).loc main_arg0)) (Blocks.row t r) d := by
  unfold Cert.Aggregator.side
  refine Finset.sum_congr rfl fun k _ => ?_
  rw [Blocks.adjBlk_apply, Entry.pay1_apply, Blocks.adj_eq, Blocks.emb_eq]

/-- WHAT POINT t WRITES BACK is block t of the aggregator's result. -/
theorem flushed_eq (c : Dev nD) (t : Fin cfg0.N) :
    (dats m 0 c).flushed 6 t = ((cfg0.win 6).blk t).view.read (Elt Ideal) (result m c) := by
  rw [flushed6, Blocks.block_at]
  refine funext fun (y : S400x128.Idx) => ?_
  obtain ⟨r, j, rfl⟩ : ∃ (r : Fin 400) (j : Fin 128), y = ix2 r j := ⟨y 0, y 1, eq_ix2 y⟩
  show k0_pay2 (Blocks.adjBlk m c t) (k0_pay1 (Blocks.emb m c)) (Pieces.embRows (grid0.coords t) (Blocks.emb m c)) (Blocks.wt₁ m c) (Blocks.biasRow₁ m c)
      (Blocks.wt₂ m c) (Blocks.biasRow₂ m c) (ix2 r j) = result m c (((cfg0.win 6).blk t).view.emb (ix2 r j))
  have he : ((cfg0.win 6).blk t).view.emb (ix2 r j) = ix2 (Blocks.row t r) j := by
    obtain ⟨-, -, -, -, -, -, -, -, -, -, -, -, e0, e1⟩ := Blocks.index_facts t
    refine funext fun a => Fin.ext ?_
    match a with
    | ⟨0, _⟩ => show win0_6.index t (0 : Fin 2) * 400 + 1 * r.val = 400 * t.val + r.val; omega
    | ⟨1, _⟩ => show win0_6.index t (1 : Fin 2) * 128 + 1 * j.val = j.val; omega
  rw [he, Entry.pay2_apply, bias₁_fun, bias₂_fun]
  have hx : ∀ d : Fin 128, Pieces.embRows (grid0.coords t) (Blocks.emb m c) (ix2 r d) = (m ((c : Thread nD τ).loc main_arg0)) (ix2 (Blocks.row t r) d) := fun d => by
    rw [Blocks.embRows_apply, Blocks.emb_eq]
  have hs := side_at m c t r
  simp only [hx, hs]
  rw [Blocks.wt₁_eq, Blocks.wt₂_eq]
  rfl

/-- Every row lies in some point's block: row i in block i / 400. -/
theorem cover (i : S10000x128.Idx) : ∃ t : Fin cfg0.N, (cfg0.win 6).flush t = true ∧ i ∈ ((cfg0.win 6).blk t).view.set := by
  have hi0 : (i 0).val < 10000 := (i 0).isLt
  have hi1 : (i 1).val < 128 := (i 1).isLt
  let t : Fin cfg0.N := ⟨(i 0).val / 400, by rw [show cfg0.N = 25 from N_0]; omega⟩
  obtain ⟨-, -, -, -, -, -, -, -, -, -, -, -, e0, e1⟩ := Blocks.index_facts t
  have ht : t.val = (i 0).val / 400 := rfl
  refine ⟨t, flush0_6 t, ?_⟩
  show i ∈ ((View.whole main_v0).slice (win0_6.rect t)).set
  rw [View.set_slice_whole, Rect.mem_set_unit]
  intro a
  match a with
  | ⟨0, _⟩ => show win0_6.index t (0 : Fin 2) * 400 ≤ (i 0).val ∧ (i 0).val < win0_6.index t (0 : Fin 2) * 400 + 400; omega
  | ⟨1, _⟩ => show win0_6.index t (1 : Fin 2) * 128 ≤ (i 1).val ∧ (i 1).val < win0_6.index t (1 : Fin 2) * 128 + 128; omega

/-- THE ARRAY after the run is the aggregator of the arguments. -/
theorem final (c : Dev nD) : (dats m 0 c).arrAt 6 cfg0.N = result m c :=
  (dats m 0 c).arrAt_eq_of_cover 6 (result m c) (fun t _ => flushed_eq m c t) cover

/-- Every weakly fair execution of the kernel's program terminates with the result array at the aggregator of the
    arguments and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Whole

end
-- ==== Proof.ReferenceStraight.lean ====
/-
  THE REFERENCE AS A STRAIGHT LINE. The plain program multiplies the adjacency into the embeddings once, then runs
  the two branches one after the other — add (resp. multiply) the embeddings and the neighbourhood sum, contract
  with the transposed weights, add the broadcast bias, apply the leaky rectifier — and adds the second branch's
  result to the first's. The rectifier is an outlined function (a comparison with zero, the slope's product, a
  selection, the selection itself outlined once more); listing each call's operations at its call site, over that
  call's own buffers, turns the program into one list of thirty host operations, each writing a buffer of its
  own. Every weakly fair execution then terminates with every buffer at the list's fold over the launch contents;
  read at the result buffer and at the six arguments, the fold is the composed term `refOut` and the arguments
  themselves.
-/
import proofs.«158629_g21217138442513_cont_8to1_279_21_alg».proof.Proof.Gen.ReferenceIdeal
import Idealize.ShloMosaic.Lib.StableHlo.Run

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-- The program's thirty operations in order: the neighbourhood product, then per branch the six operations
    up to the biased product, the slope constant and the rectifier's seven. -/
abbrev ops : List (HloOp τ sig (Elt F)) :=
  [ binary main_arg1 main_arg0 main_v0 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_arg0 main_v0 main_v1 (addf : (⟨S10000x128, .f32⟩ : BufTy).Contents (Elt F) → (⟨S10000x128, .f32⟩ : BufTy).Contents (Elt F) → (⟨S10000x128, .f32⟩ : BufTy).Contents (Elt F)),
    unary main_arg2 main_v2 ((transpose S128x128 [1, 0] · transposes_S128x128_S128x128_1_0) : (⟨S128x128, .f32⟩ : BufTy).Contents (Elt F) → (⟨S128x128, .f32⟩ : BufTy).Contents (Elt F)),
    binary main_v1 main_v2 main_v3 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg3 main_v4 (broadcastInDim S1x128 ![1] bcast_S128_S1x128_1 : (⟨S128, .f32⟩ : BufTy).Contents (Elt F) → (⟨S1x128, .f32⟩ : BufTy).Contents (Elt F)),
    unary main_v4 main_v5 (broadcastInDim S10000x128 ![0, 1] bcast_S1x128_S10000x128_0_1 : (⟨S1x128, .f32⟩ : BufTy).Contents (Elt F) → (⟨S10000x128, .f32⟩ : BufTy).Contents (Elt F)),
    binary main_v3 main_v5 main_v6 (addf : (⟨S10000x128, .f32⟩ : BufTy).Contents (Elt F) → (⟨S10000x128, .f32⟩ : BufTy).Contents (Elt F) → (⟨S10000x128, .f32⟩ : BufTy).Contents (Elt F)),
    nullary main_cst (constant S_ .f32 0x3C23D70A#32),
    TRef.nullary main_call0.cst (constant S_ .f32 0x00000000#32),
    TRef.unary main_call0.cst main_call0.v0 (broadcastInDim S10000x128 ![] bcast_S_S10000x128),
    TRef.binary (.of main_v6) main_call0.v0 main_call0.v1 (cmpf .oge),
    TRef.unary (.of main_cst) main_call0.v2 id,
    TRef.unary main_call0.v2 main_call0.v3 (broadcastInDim S10000x128 ![] bcast_S_S10000x128),
    TRef.binary main_call0.v3 (.of main_v6) main_call0.v4 mulf,
    TRef.ternary main_call0.v1 (.of main_v6) main_call0.v4 main_call0.call0.v0 select,
    binary main_arg0 main_v0 main_v8 (mulf : (⟨S10000x128, .f32⟩ : BufTy).Contents (Elt F) → (⟨S10000x128, .f32⟩ : BufTy).Contents (Elt F) → (⟨S10000x128, .f32⟩ : BufTy).Contents (Elt F)),
    unary main_arg4 main_v9 ((transpose S128x128 [1, 0] · transposes_S128x128_S128x128_1_0) : (⟨S128x128, .f32⟩ : BufTy).Contents (Elt F) → (⟨S128x128, .f32⟩ : BufTy).Contents (Elt F)),
    binary main_v8 main_v9 main_v10 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg5 main_v11 (broadcastInDim S1x128 ![1] bcast_S128_S1x128_1 : (⟨S128, .f32⟩ : BufTy).Contents (Elt F) → (⟨S1x128, .f32⟩ : BufTy).Contents (Elt F)),
    unary main_v11 main_v12 (broadcastInDim S10000x128 ![0, 1] bcast_S1x128_S10000x128_0_1 : (⟨S1x128, .f32⟩ : BufTy).Contents (Elt F) → (⟨S10000x128, .f32⟩ : BufTy).Contents (Elt F)),
    binary main_v10 main_v12 main_v13 (addf : (⟨S10000x128, .f32⟩ : BufTy).Contents (Elt F) → (⟨S10000x128, .f32⟩ : BufTy).Contents (Elt F) → (⟨S10000x128, .f32⟩ : BufTy).Contents (Elt F)),
    nullary main_cst_0 (constant S_ .f32 0x3C23D70A#32),
    TRef.nullary main_call1.cst (constant S_ .f32 0x00000000#32),
    TRef.unary main_call1.cst main_call1.v0 (broadcastInDim S10000x128 ![] bcast_S_S10000x128),
    TRef.binary (.of main_v13) main_call1.v0 main_call1.v1 (cmpf .oge),
    TRef.unary (.of main_cst_0) main_call1.v2 id,
    TRef.unary main_call1.v2 main_call1.v3 (broadcastInDim S10000x128 ![] bcast_S_S10000x128),
    TRef.binary main_call1.v3 (.of main_v13) main_call1.v4 mulf,
    TRef.ternary main_call1.v1 (.of main_v13) main_call1.v4 main_call1.call0.v0 select,
    binary main_v14 main_v7 main_v15 (addf : (⟨S10000x128, .f32⟩ : BufTy).Contents (Elt F) → (⟨S10000x128, .f32⟩ : BufTy).Contents (Elt F) → (⟨S10000x128, .f32⟩ : BufTy).Contents (Elt F)) ]

set_option maxRecDepth 1024 in
/-- The program is that straight line: the two outlined functions unfolded at their calls, sequencing reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub ..,
    binary_bufs_sub .., unary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub .., ternary_bufs_sub ..,
    binary_bufs_sub .., unary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub .., ternary_bufs_sub ..,
    binary_bufs_sub ..⟩

/-- Every weakly fair execution terminates with every buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Straight

end
-- ==== Proof.ReferenceRead.lean ====
/-
  WHAT THE REFERENCE COMPUTES. Read at the result buffer, the fold of the reference's thirty operations is one
  composed term of the six arguments (`refOut`): the second branch's rectified biased product plus the first's. At the
  extended reals that term is the aggregator, entry by entry: the host's dot product of [10000, 10000] by
  [10000, 128] at (i, d) is the neighbourhood sum s(i, d); the dot product with the transposed weights at (i, j) is
  Σ_d x(i, d) · W(j, d), a transposed matrix read at (d, j) being the matrix at (j, d); the bias broadcast twice reads
  b(j) at every row; the rectifier acts entry by entry; and the two branches are added in the other order, which on
  the extended reals is the same sum.
-/
import proofs.«158629_g21217138442513_cont_8to1_279_21_alg».proof.Proof.ReferenceStraight
import proofs.«158629_g21217138442513_cont_8to1_279_21_alg».proof.Proof.Aggregator
import proofs.«158629_g21217138442513_cont_8to1_279_21_alg».proof.Proof.LibPlainDot
import Idealize.ShloMosaic.Lib.ValueLayout
import Idealize.ShloMosaic.Lib.Pipeline.Value

noncomputable section

open scoped BigOperators

namespace Cert.ReferenceIdeal.Straight

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-- The adjacency times the embeddings. -/
def sideT (e : FVec F S10000x128 .f32) (A : FVec F S10000x10000 .f32) : FVec F S10000x128 .f32 :=
  Host.dotGeneral dot_S10000x10000_S10000x128_S10000x128_1_0_0_1_n_n none A e

/-- One branch before the rectifier: x times the transposed weights, plus the bias on every row. -/
def branchT (x : FVec F S10000x128 .f32) (W : FVec F S128x128 .f32) (b : FVec F S128 .f32) : FVec F S10000x128 .f32 :=
  addf (Host.dotGeneral dot_S10000x128_S128x128_S10000x128_1_0_0_1_n_n none x (transpose S128x128 [1, 0] W transposes_S128x128_S128x128_1_0))
    (broadcastInDim S10000x128 ![0, 1] bcast_S1x128_S10000x128_0_1 (broadcastInDim S1x128 ![1] bcast_S128_S1x128_1 b))

/-- The rectifier as the outlined function spells it. -/
def leakyT (x : FVec F S10000x128 .f32) : FVec F S10000x128 .f32 :=
  select (cmpf .oge x (broadcastInDim S10000x128 ![] bcast_S_S10000x128 (constant S_ .f32 0x00000000#32))) x
    (mulf (broadcastInDim S10000x128 ![] bcast_S_S10000x128 (id (constant S_ .f32 0x3C23D70A#32))) x)

/-- The reference's result as one term of its arguments. -/
def refOut (e : FVec F S10000x128 .f32) (A : FVec F S10000x10000 .f32) (W₁ : FVec F S128x128 .f32) (b₁ : FVec F S128 .f32)
    (W₂ : FVec F S128x128 .f32) (b₂ : FVec F S128 .f32) : FVec F S10000x128 .f32 :=
  addf (leakyT (branchT (mulf e (sideT e A)) W₂ b₂)) (leakyT (branchT (addf e (sideT e A)) W₁ b₁))

/-- The fold at the result buffer is that term. -/
theorem out_eq (V : Valuation τ sig (Elt F)) :
    after ops V (main_v15 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

/-- Every weakly fair execution of the reference terminates with the result at `refOut` of the arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15)
        = refOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v15).trans (out_eq _),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp)⟩)
    (run_fold m ρ)

/-! ## The term at the extended reals, entry by entry -/

theorem sideT_apply (e : FVec Ideal S10000x128 .f32) (A : FVec Ideal S10000x10000 .f32) (i : Fin 10000) (d : Fin 128) :
    sideT e A (ix2 i d) = Cert.Aggregator.side A e i d :=
  Cert.Lib.PlainDot.dotGeneral_apply (d := dot_S10000x10000_S10000x128_S10000x128_1_0_0_1_n_n) ⟨rfl, rfl, rfl, rfl, rfl, rfl⟩ none _ A e (ix2 i d)

theorem bias_apply (b : FVec Ideal S128 .f32) (i : Fin 10000) (j : Fin 128) :
    broadcastInDim S10000x128 ![0, 1] bcast_S1x128_S10000x128_0_1 (broadcastInDim S1x128 ![1] bcast_S128_S1x128_1 b) (ix2 i j) = b (ix1 j) := by
  rw [broadcastInDim_apply _ _ _ (ix2 i j) (ix2 (0 : Fin 1) j) (fun a => by match a with | ⟨0, _⟩ => rfl | ⟨1, _⟩ => rfl)]
  exact broadcastInDim_apply _ _ b (ix2 (0 : Fin 1) j) (ix1 j) (fun a => by match a with | ⟨0, _⟩ => rfl)

theorem branchT_apply (x : FVec Ideal S10000x128 .f32) (W : FVec Ideal S128x128 .f32) (b : FVec Ideal S128 .f32) (i : Fin 10000) (j : Fin 128) :
    branchT x W b (ix2 i j) = Cert.Aggregator.affine (fun d => x (ix2 i d)) W b j := by
  unfold branchT Cert.Aggregator.affine
  rw [addf_apply, bias_apply]
  refine congrArg (· + b (ix1 j)) ?_
  refine (Cert.Lib.PlainDot.dotGeneral_apply (d := dot_S10000x128_S128x128_S10000x128_1_0_0_1_n_n) ⟨rfl, rfl, rfl, rfl, rfl, rfl⟩ none _ x _ (ix2 i j)).trans ?_
  exact Finset.sum_congr rfl fun d _ => congrArg (x (ix2 i d) * ·) (transpose_ix2_apply W _ d j)

theorem leakyT_apply (x : FVec Ideal S10000x128 .f32) (y : S10000x128.Idx) : leakyT x y = Cert.Aggregator.leaky (x y) := rfl

/-- At the extended reals the reference's term is the aggregator. -/
theorem refOut_eq (e : FVec Ideal S10000x128 .f32) (A : FVec Ideal S10000x10000 .f32) (W₁ : FVec Ideal S128x128 .f32) (b₁ : FVec Ideal S128 .f32)
    (W₂ : FVec Ideal S128x128 .f32) (b₂ : FVec Ideal S128 .f32) :
    refOut e A W₁ b₁ W₂ b₂ = Cert.Aggregator.agg e A W₁ b₁ W₂ b₂ := by
  funext y
  obtain ⟨i, j, rfl⟩ : ∃ (i : Fin 10000) (j : Fin 128), y = ix2 i j := ⟨y 0, y 1, eq_ix2 y⟩
  unfold refOut Cert.Aggregator.agg Cert.Aggregator.out
  rw [addf_apply, leakyT_apply, leakyT_apply, branchT_apply, branchT_apply, add_comm]
  have hs : ∀ d : Fin 128, sideT e A (ix2 i d) = Cert.Aggregator.side A e i d := fun d => sideT_apply e A i d
  simp only [addf_apply, mulf_apply, hs]

end Cert.ReferenceIdeal.Straight

end
-- ==== Proof.lean ====
/-
  THE CERTIFICATE. The kernel computes the bi-interaction aggregator row block by row block — per block of 400 rows
  the neighbourhood sum A·e against an embedding table cast once into a scratch, then both branches
  leaky((e + A·e)·W₁ᵀ + b₁) and leaky((e ∘ A·e)·W₂ᵀ + b₂), added — and the plain program computes the same array whole.

  The three frames: both forms of the kernel run to the end from any memory, fault nowhere and leave their six
  arguments as launched (the generated frame certificates), and so does the plain program, whose run is a straight
  line of thirty host operations each writing a buffer of its own. The idealization rewrote no operation, so there
  is nothing to preserve. On the extended reals both results are the aggregator of the arguments, entry by entry:
  the kernel's 25 blocks of 400 rows each hold the aggregator's rows and together cover the array, the scratch
  holding the embedding table at every grid point; the plain program's composed term is the aggregator with the two
  branches added in the other order. Every sum and product occurs on both sides in the same arrangement, so the
  finiteness of the inputs is never used.
-/
import proofs.«158629_g21217138442513_cont_8to1_279_21_alg».proof.Defs
import proofs.«158629_g21217138442513_cont_8to1_279_21_alg».proof.Proof.Gen.Kernel
import proofs.«158629_g21217138442513_cont_8to1_279_21_alg».proof.Proof.Gen.Kernel.Frame
import proofs.«158629_g21217138442513_cont_8to1_279_21_alg».proof.Proof.Gen.KernelIdeal
import proofs.«158629_g21217138442513_cont_8to1_279_21_alg».proof.Proof.Gen.KernelIdeal.Frame
import proofs.«158629_g21217138442513_cont_8to1_279_21_alg».proof.Proof.Gen.ReferenceIdeal
import proofs.«158629_g21217138442513_cont_8to1_279_21_alg».proof.Proof.Gen.Pre_finite_inputs
import proofs.«158629_g21217138442513_cont_8to1_279_21_alg».proof.Proof.KernelWhole
import proofs.«158629_g21217138442513_cont_8to1_279_21_alg».proof.Proof.ReferenceRead
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The plain program's frame is its run with the result forgotten. -/
theorem frame_reference : Cert.frame_ReferenceIdeal := fun m ρ _ =>
  (θ_run Cert.ReferenceIdeal.defs _ _).mono (fun _ h c => (h c).2) (Cert.ReferenceIdeal.Straight.run (F := Ideal) m ρ)

/-- Both programs end with the aggregator of the (agreeing) arguments in their result arrays. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Straight.run (F := Ideal) m' ρ')
  obtain ⟨h0, h1, h2, h3, h4, h5⟩ := hagree c
  rw [h0, h1, h2, h3, h4, h5]
  exact Cert.ReferenceIdeal.Straight.refOut_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
